-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192x1 : Shape := ⟨3, ![4, 8192, 1]⟩
abbrev S1x512x3 : Shape := ⟨3, ![1, 512, 3]⟩
abbrev S1x2048x3 : Shape := ⟨3, ![1, 2048, 3]⟩
abbrev S1x512x1 : Shape := ⟨3, ![1, 512, 1]⟩
abbrev S512x1 : Shape := ⟨2, ![512, 1]⟩
abbrev S512x3 : Shape := ⟨2, ![512, 3]⟩
abbrev S2048x3 : Shape := ⟨2, ![2048, 3]⟩
abbrev S512 : Shape := ⟨1, ![512]⟩
abbrev S2048 : Shape := ⟨1, ![2048]⟩
abbrev S512x2048 : Shape := ⟨2, ![512, 2048]⟩
abbrev S1x2048 : Shape := ⟨2, ![1, 2048]⟩
abbrev S4x8192 : Shape := ⟨2, ![4, 8192]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x1, .f32⟩
  | .hbm, ⟨3, _⟩ => ⟨S4x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x2048x3, .f32⟩
  | .local _ .vmem, ⟨3, _⟩ => ⟨S1x2048x3, .f32⟩
  | .local _ .vmem, ⟨4, _⟩ => ⟨S1x512x1, .f32⟩
  | .local _ .vmem, ⟨5, _⟩ => ⟨S1x512x1, .f32⟩
  | .local _ .vmem, ⟨6, _⟩ => ⟨S512x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 4], ![false, false, false]⟩

def k0_cond2 (i : grid0.Coords) : BitVec 1 :=
  let arg2 : BitVec 32 := BitVec.ofNat 32 (i 2).val
  let c3_i32 : BitVec 32 := 3#32
  let v32 : BitVec 1 := Scalar.cmpi .eq arg2 c3_i32
  let v33 : BitVec 32 := Scalar.extui v32
  let c0_i32_15 : BitVec 32 := 0#32
  let v34 : BitVec 1 := Scalar.cmpi .ne v33 c0_i32_15
  v34

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  reduces_S512x3_S512 : S512x3.Reduces [1] S512
  shapeCasts_S512_S512x1 : S512.ShapeCasts S512x1
  reduces_S2048x3_S2048 : S2048x3.Reduces [1] S2048
  bitsLt_bf16_f32 : FTy.bits .bf16 < FTy.bits .f32
  shapeCasts_S2048_S1x2048 : S2048.ShapeCasts S1x2048
  broadcasts_S512x1_S512x2048 : S512x1.Broadcasts S512x2048
  broadcasts_S1x2048_S512x2048 : S1x2048.Broadcasts S512x2048
  reduces_S512x2048_S512 : S512x2048.Reduces [1] S512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  shapeCasts_S4x8192x1_S4x8192 : S4x8192x1.ShapeCasts S4x8192
  reducesTo_S4x8192_S_d0_1 : S4x8192.ReducesTo [0, 1] S_
  h_S_ : 0 < S_.numel
  dot_S512x3_S2048x3_S512x2048_1_1_0_0_n_n_wf : DotDims.WF S512x3 S2048x3 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S4x8192x3.size a
  hwx0_0 : ∀ i : grid0.Coords, EltTy.bits .f32 = 32 ∨ (Rect.block (s := S4x8192x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x3.size a ≤ S4x8192x3.size a
  hwx0_1 : ∀ i : grid0.Coords, EltTy.bits .f32 = 32 ∨ (Rect.block (s := S4x8192x3) S1x2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S4x8192x1.size a
  hwx0_2 : ∀ i : grid0.Coords, EltTy.bits .f32 = 32 ∨ (Rect.block (s := S4x8192x1) S1x512x1.size (cc0_transform_2 i) (hinb0_2 i)).WholeWords (EltTy.packing .f32)

variable [Facts₀]

def dot_S512x3_S2048x3_S512x2048_1_1_0_0_n_n : DotDims S512x3 S2048x3 S512x2048 where
  lhsContracting := [1]
  rhsContracting := [1]
  lhsNonContracting := [0]
  rhsNonContracting := [0]
  lhsBatch := []
  rhsBatch := []
  wf := dot_S512x3_S2048x3_S512x2048_1_1_0_0_n_n_wf

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 30
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Cases.lean ====
/-
  What one grid step leaves behind, case by case.

  The 256 steps fall in three cases by their position `n` among the four target chunks of a row block:
  the first chunk (`n = 0`) resets the carried column to `+inf` and then updates it; a middle chunk updates it; the
  last chunk (`n = 3`) updates it and also writes it back as the output block. In every case the carried column
  ends at the update's payload — over the reset's payload in the first — and in the last case the output block is
  the write-back's payload of that.
-/
import proofs.«106496_j4097398800462_1_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- FIRST CHUNK: the carried column is reset, read back and updated — the update's payload over the reset's. -/
theorem carried_A (c : Dev nD) (i : grid0.Coords) (a3 : Memref sig .tc .vmem S1x512x3 .f32) (h3 : a3.IsWhole)
    (a4 : Memref sig .tc .vmem S1x2048x3 .f32) (h4 : a4.IsWhole) (a5 : Memref sig .tc .vmem S1x512x1 .f32) (h5 : a5.IsWhole)
    (a6 : Memref sig .tc .vmem S512x1 .f32) (h6 : a6.IsWhole) (hc0 : cond0_0 i) (hc1 : ¬cond0_1 i)
    (x0 : Vec F S1x512x3 .f32) (x1 : Vec F S1x2048x3 .f32) :
    sout0_A_0 c i a3 h3 a4 h4 a5 h5 a6 h6 hc0 hc1 x0 x1 = k0_pay3 x0 x1 (k0_pay2 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S512x1) hz2, View.readCov_unit_zero (S := S512x1) _ hz2]
  simp only [View.readAt_eq_ld, h3.read_unread, h4.read_unread, h6.read_unread, View.readCov_unit_zero (S := S512x1) _ hz2, View.ld_unit_zero (S := S1x512x3) hz3, View.ld_unit_zero (S := S1x2048x3) hz3, View.ld_unit_zero (S := S512x1) hz2]

/-- MIDDLE CHUNK: the carried column, holding `xs0`, ends at the update's payload over it. -/
theorem carried_B (c : Dev nD) (i : grid0.Coords) (a3 : Memref sig .tc .vmem S1x512x3 .f32) (h3 : a3.IsWhole)
    (a4 : Memref sig .tc .vmem S1x2048x3 .f32) (h4 : a4.IsWhole) (a5 : Memref sig .tc .vmem S1x512x1 .f32) (h5 : a5.IsWhole)
    (a6 : Memref sig .tc .vmem S512x1 .f32) (h6 : a6.IsWhole) (hc0 : ¬cond0_0 i) (hc1 : ¬cond0_1 i)
    (x0 : Vec F S1x512x3 .f32) (x1 : Vec F S1x2048x3 .f32) (xs0 : Vec F S512x1 .f32) :
    sout0_B_0 c i a3 h3 a4 h4 a5 h5 a6 h6 hc0 hc1 x0 x1 xs0 = k0_pay3 x0 x1 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz2]
  simp only [View.readAt_eq_ld, h3.read_unread, h4.read_unread, h6.read_unread, View.readCov_unit_zero (S := S512x1) _ hz2, View.ld_unit_zero (S := S1x512x3) hz3, View.ld_unit_zero (S := S1x2048x3) hz3, View.ld_unit_zero (S := S512x1) hz2]

/-- LAST CHUNK: the same update of the carried column, -/
theorem carried_C (c : Dev nD) (i : grid0.Coords) (a3 : Memref sig .tc .vmem S1x512x3 .f32) (h3 : a3.IsWhole)
    (a4 : Memref sig .tc .vmem S1x2048x3 .f32) (h4 : a4.IsWhole) (a5 : Memref sig .tc .vmem S1x512x1 .f32) (h5 : a5.IsWhole)
    (a6 : Memref sig .tc .vmem S512x1 .f32) (h6 : a6.IsWhole) (hc0 : ¬cond0_0 i) (hc1 : cond0_1 i)
    (x0 : Vec F S1x512x3 .f32) (x1 : Vec F S1x2048x3 .f32) (xs0 : Vec F S512x1 .f32) :
    sout0_C_0 c i a3 h3 a4 h4 a5 h5 a6 h6 hc0 hc1 x0 x1 xs0 = k0_pay3 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz2]
  simp only [View.readAt_eq_ld, h3.read_unread, h4.read_unread, h6.read_unread, View.readCov_unit_zero (S := S512x1) _ hz2, View.ld_unit_zero (S := S1x512x3) hz3, View.ld_unit_zero (S := S1x2048x3) hz3, View.ld_unit_zero (S := S512x1) hz2]

/-- and the output block is the updated column, read back and re-laid as a `[1, 512, 1]` block. -/
theorem out_C (c : Dev nD) (i : grid0.Coords) (a3 : Memref sig .tc .vmem S1x512x3 .f32) (h3 : a3.IsWhole)
    (a4 : Memref sig .tc .vmem S1x2048x3 .f32) (h4 : a4.IsWhole) (a5 : Memref sig .tc .vmem S1x512x1 .f32) (h5 : a5.IsWhole)
    (a6 : Memref sig .tc .vmem S512x1 .f32) (h6 : a6.IsWhole) (hc0 : ¬cond0_0 i) (hc1 : cond0_1 i)
    (x0 : Vec F S1x512x3 .f32) (x1 : Vec F S1x2048x3 .f32) (xs0 : Vec F S512x1 .f32) :
    out0_C_2 c i a3 h3 a4 h4 a5 h5 a6 h6 hc0 hc1 x0 x1 xs0 = k0_pay1 (k0_pay3 x0 x1 xs0) := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz3]
  simp only [View.readAt_eq_ld, h3.read_unread, h4.read_unread, h6.read_unread, View.readCov_unit_zero (S := S512x1) _ hz2, View.ld_unit_zero (S := S1x512x3) hz3, View.ld_unit_zero (S := S1x2048x3) hz3, View.ld_unit_zero (S := S512x1) hz2]

end Cert.KernelIdeal.Cases

end
-- ==== Proof.Nearest.lean ====
/-
  The mathematics of the certificate, over plain extended reals and with no program in sight.

  For two clouds of 3-vectors, batch by batch, the quantity both programs compute for a source point is its
  distance to the NEAREST target point of the same batch: the minimum, over the 8192 targets, of
  `sqrt (max ((|a|² + |b|²) - 2 (a · b)) 0)`, started from the `+inf` pattern. One program takes the minimum over
  all targets at once; the other takes it over four consecutive chunks of 2048 targets, carrying a running
  minimum from chunk to chunk. A minimum is determined by its lower bounds (`x ≤ min … ↔ x ≤ each`), so the two
  agree: the running minimum after chunk `n` has exactly the lower bounds of the first `(n + 1) * 2048` targets
  (`le_running_step`), and after the last chunk those are all of them (`eq_nearest_of_le_iff`).
-/
import Idealize.ShloMosaic.PureOps.Ideal.Laws
import Idealize.ShloMosaic.Lib.ValueIdx
import Mathlib.Data.Finset.Fold

noncomputable section

namespace Cert.Nearest

open Idealize.ShloMosaic Idealize.ShloMosaic.ValueIdx

/-- A batched cloud of 3-vectors: 4 batches of 8192 points. -/
abbrev Cloud : Shape := ⟨3, ![4, 8192, 3]⟩

/-- The three float patterns the programs mention, read at the ideal instance. They are never evaluated: the same
    pattern stands on both sides. -/
abbrev inf32 : EReal := Ideal.ofBits .f32 0x7F800000#32
abbrev two32 : EReal := Ideal.ofBits .f32 0x40000000#32
abbrev zero32 : EReal := Ideal.ofBits .f32 0x00000000#32

/-- The distance of two 3-vectors as both programs spell it: squared norms added, twice the inner product
    subtracted, clamped below at zero, square root. -/
def dist (a b : Fin 3 → EReal) : EReal :=
  Ideal.sqrt (max (((∑ k, a k * a k) + (∑ k, b k * b k)) - two32 * (∑ k, a k * b k)) zero32)

/-- Point `r` of batch `b` of a cloud. -/
def pt (X : Cloud.Idx → EReal) (b : Fin 4) (r : Fin 8192) : Fin 3 → EReal := fun k => X (ix3 b r k)

/-- The distance from source point `(b, r)` to the nearest target point of batch `b`. -/
def nearest (P G : Cloud.Idx → EReal) (b : Fin 4) (r : Fin 8192) : EReal :=
  Finset.univ.fold min inf32 (fun j : Fin 8192 => dist (pt P b r) (pt G b j))

/-- The lower bounds of a minimum over a whole finite index type, started from `top`. -/
theorem le_foldmin {ι : Type} [Fintype ι] (top : EReal) (f : ι → EReal) (x : EReal) :
    x ≤ Finset.univ.fold min top f ↔ x ≤ top ∧ ∀ j, x ≤ f j := by
  rw [Finset.le_fold_min]
  exact ⟨fun h => ⟨h.1, fun j => h.2 j (Finset.mem_univ j)⟩, fun h => ⟨h.1, fun j _ => h.2 j⟩⟩

/-- ONE STEP OF THE RUNNING MINIMUM. If `A` has the lower bounds of `top` and of the first `n * 2048` entries of `d`,
    then `min A` of (the minimum from `top` over chunk `n`, the entries `n * 2048 + j`) has those of the first
    `(n + 1) * 2048` entries. -/
theorem le_running_step (top : EReal) (d : Fin 8192 → EReal) (n : ℕ) (hn : n < 4) (A : EReal)
    (hA : ∀ x, x ≤ A ↔ x ≤ top ∧ ∀ k : Fin 8192, k.val < n * 2048 → x ≤ d k)
    (chunk : Fin 2048 → EReal) (hchunk : ∀ (j : Fin 2048) (k : Fin 8192), k.val = n * 2048 + j.val → chunk j = d k)
    (x : EReal) :
    x ≤ min A (Finset.univ.fold min top chunk) ↔ x ≤ top ∧ ∀ k : Fin 8192, k.val < (n + 1) * 2048 → x ≤ d k := by
  rw [le_min_iff, hA, le_foldmin]
  constructor
  · rintro ⟨⟨ht, hlo⟩, -, hhi⟩
    refine ⟨ht, fun k hk => ?_⟩
    by_cases h : k.val < n * 2048
    · exact hlo k h
    · have hj : k.val - n * 2048 < 2048 := by omega
      rw [← hchunk ⟨k.val - n * 2048, hj⟩ k (by show k.val = n * 2048 + (k.val - n * 2048); omega)]
      exact hhi _
  · rintro ⟨ht, hall⟩
    refine ⟨⟨ht, fun k hk => hall k (by omega)⟩, ht, fun j => ?_⟩
    have hj := j.isLt
    have hk : n * 2048 + j.val < 8192 := by omega
    rw [hchunk j ⟨n * 2048 + j.val, hk⟩ rfl]
    exact hall _ (by show n * 2048 + j.val < (n + 1) * 2048; omega)

/-- A value with the lower bounds of `inf32` and of every target's distance IS the nearest distance. -/
theorem eq_nearest_of_le_iff (P G : Cloud.Idx → EReal) (b : Fin 4) (r : Fin 8192) (A : EReal)
    (hA : ∀ x, x ≤ A ↔ x ≤ inf32 ∧ ∀ k : Fin 8192, k.val < (3 + 1) * 2048 → x ≤ dist (pt P b r) (pt G b k)) :
    A = nearest P G b r := by
  refine eq_of_forall_le_iff fun x => ?_
  unfold nearest
  rw [hA, le_foldmin]
  exact ⟨fun h => ⟨h.1, fun k => h.2 k k.isLt⟩, fun h => ⟨h.1, fun k _ => h.2 k⟩⟩

/-! ## What follows the minima in both programs -/

/-- The table of nearest distances: entry `(b, r)` for source point `(b, r)`. -/
def nearestTable (P G : Cloud.Idx → EReal) : (⟨2, ![4, 8192]⟩ : Shape).Idx → EReal := fun i => nearest P G (i 0) (i 1)

/-- The mean as both programs spell it: the host's sum of all 32768 entries from the zero pattern, its quotient by the
    pattern of 32768, and the product with the pattern of one. Both programs end with these three operations on their
    table of minima, so the certificate compares the tables and never opens this term. -/
def mean (R : (⟨2, ![4, 8192]⟩ : Shape).Idx → EReal) : (⟨0, ![]⟩ : Shape).Idx → EReal :=
  mulf (F := Ideal)
    (Host.divf (F := Ideal)
      (Host.reduceAdd (F := Ideal) (φ := .f32) R (constant (F := Ideal) ⟨0, ![]⟩ .f32 0x00000000#32)
        (show (⟨2, ![4, 8192]⟩ : Shape).ReducesTo [0, 1] ⟨0, ![]⟩ by decide) (show 0 < (⟨0, ![]⟩ : Shape).numel by decide))
      (constant (F := Ideal) ⟨0, ![]⟩ .f32 0x47000000#32))
    (constant (F := Ideal) ⟨0, ![]⟩ .f32 0x3F800000#32)

end Cert.Nearest

end
-- ==== Proof.Tile.lean ====
/-
  One grid step's arithmetic, read at an index at the ideal instance.

  A step holds 512 source points (rows of `a`) and 2048 target points (rows of `b`). It forms the 512 × 2048 table
  of squared distances `(|a_p|² + |b_j|²) - 2 (a_p · b_j)` — the squared norms as lane sums, the inner products as
  one matrix product whose operands' narrowing to bf16 is the identity at this instance —, clamps at zero, takes
  square roots, and reduces each row by `min` from `+inf`: per source point, the distance to the nearest of the
  step's 2048 targets. The running minimum is then `min` of the carried column and this one.
-/
import proofs.«106496_j4097398800462_1_alg».proof.Proof.Gen.KernelIdeal.Skeleton
import proofs.«106496_j4097398800462_1_alg».proof.Proof.Nearest
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx Cert.Nearest

/-! ## Column layouts read at an index -/

section Layout
variable {α : Type}

/-- A vector cast to a one-column matrix reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its rows reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

variable {F : FTy → Type} [FloatOps F]

/-! ## The step in this module's own words (any instance) -/

/-- The table of squared distances of a step: row `p` is source point `a_p`, column `j` target point `b_j`. -/
def sqTable (a : FVec F S512x3 .f32) (b : FVec F S2048x3 .f32) : FVec F S512x2048 .f32 :=
  subf
    (addf
      (broadcastTo S512x2048 (shapeCast S512x1 (multiReduction .add [1] S512 (mulf a a) 0x00000000#32 reduces_S512x3_S512 (.inl rfl) rfl) shapeCasts_S512_S512x1) broadcasts_S512x1_S512x2048)
      (broadcastTo S512x2048 (shapeCast S1x2048 (multiReduction .add [1] S2048 (mulf b b) 0x00000000#32 reduces_S2048x3_S2048 (.inl rfl) rfl) shapeCasts_S2048_S1x2048) broadcasts_S1x2048_S512x2048))
    (mulf (broadcast S512x2048 (Scalar.ofBits .f32 0x40000000#32))
      (matmul dot_S512x3_S2048x3_S512x2048_1_1_0_0_n_n none (truncf .bf16 a bitsLt_bf16_f32) (truncf .bf16 b bitsLt_bf16_f32) (constant S512x2048 .f32 0x00000000#32)))

/-- Per source point of the step, the distance to the nearest of the step's targets, as a column. -/
def stepMin (a : FVec F S512x3 .f32) (b : FVec F S2048x3 .f32) : FVec F S512x1 .f32 :=
  shapeCast S512x1
    (multiReduction .minimumf [1] S512 (sqrt (maximumf (sqTable a b) (broadcast S512x2048 (Scalar.ofBits .f32 0x00000000#32))))
      0x7F800000#32 reduces_S512x2048_S512 (.inl rfl) rfl)
    shapeCasts_S512_S512x1

/-- The update's payload is the carried column against the step's column. -/
theorem pay3_eq (x0 : Vec F S1x512x3 .f32) (x1 : Vec F S1x2048x3 .f32) (acc : Vec F S512x1 .f32) :
    k0_pay3 x0 x1 acc
      = shapeCast S512x1 (minimumf acc (stepMin (shapeCast S512x3 x0 shapeCasts_S1x512x3_S512x3) (shapeCast S2048x3 x1 shapeCasts_S1x2048x3_S2048x3))) shapeCasts_S512x1_S512x1 := rfl

/-- The reset's payload is the column of `+inf`. -/
theorem pay2_eq : k0_pay2 (F := F) = shapeCast S512x1 (broadcast S512x1 (Scalar.ofBits .f32 0x7F800000#32)) shapeCasts_S512x1_S512x1 := rfl

/-- The write-back's payload is the carried column re-laid as a `[1, 512, 1]` block. -/
theorem pay1_eq (v : Vec F S512x1 .f32) : k0_pay1 v = shapeCast S1x512x1 v shapeCasts_S512x1_S1x512x1 := rfl

/-! ## Read at an index, at the ideal instance -/

/-- A lane sum over rows of three entries, from the zero pattern: the plain sum of the row. -/
theorem sum_row3 {n : ℕ} (src : FVec Ideal ⟨2, ![n, 3]⟩ .f32) (h : (⟨2, ![n, 3]⟩ : Shape).Reduces [1] ⟨1, ![n]⟩)
    (hφ : FKind.Formats .f32) (hacc : (0x00000000#32 : BitVec 32) = 0x00000000#32) (p : Fin n) :
    multiReduction .add [1] ⟨1, ![n]⟩ src 0x00000000#32 h hφ hacc (ix1 p) = ∑ k : Fin 3, src (ix2 p k) :=
  (Ideal.multiReduction_add_single src 0x00000000#32 h hφ hacc (ix1 p)).trans
    (Finset.sum_congr rfl fun k _ => congrArg src (funext fun a => Fin.ext (by
      match a with
      | ⟨0, _⟩ => rfl
      | ⟨1, _⟩ => rfl)))

/-- A lane minimum over the rows of a matrix, from the `+inf` pattern: the minimum of the row, in any order. -/
theorem min_row {n w : ℕ} (src : FVec Ideal ⟨2, ![n, w]⟩ .f32) (h : (⟨2, ![n, w]⟩ : Shape).Reduces [1] ⟨1, ![n]⟩)
    (hφ : FKind.Formats .f32) (hacc : (0x7F800000#32 : BitVec 32) = 0x7F800000#32) (p : Fin n) :
    multiReduction .minimumf [1] ⟨1, ![n]⟩ src 0x7F800000#32 h hφ hacc (ix1 p)
      = Finset.univ.fold min inf32 (fun j : Fin w => src (ix2 p j)) :=
  (multiReduction_minimumf_eq_fold src 0x7F800000#32 h hφ hacc (ix1 p)).trans
    ((h.fold_filter_drop_single FloatOps.minimumf (FloatOps.ofBits .f32 0x7F800000#32) src (ix1 p)).trans
      (congrArg (Finset.univ.fold min inf32) (funext fun j => congrArg src (funext fun a => Fin.ext (by
        match a with
        | ⟨0, _⟩ => rfl
        | ⟨1, _⟩ => rfl)))))

/-! ### The matrix product: row `p` of the sources against row `j` of the targets -/

theorem lhs_dot_0 (i : S512x2048.Idx) (q : dot_S512x3_S2048x3_S512x2048_1_1_0_0_n_n.contr.Idx) :
    (dot_S512x3_S2048x3_S512x2048_1_1_0_0_n_n.lhsIdx i q 0).val = (i 0).val := by
  unfold DotDims.lhsIdx
  rw [dif_neg (show ¬(0 : Fin S512x3.rank) ∈ dot_S512x3_S2048x3_S512x2048_1_1_0_0_n_n.lhsBatch by decide), dif_pos (show (0 : Fin S512x3.rank) ∈ dot_S512x3_S2048x3_S512x2048_1_1_0_0_n_n.lhsNonContracting by decide)]
  rfl
theorem lhs_dot_1 (i : S512x2048.Idx) (q : dot_S512x3_S2048x3_S512x2048_1_1_0_0_n_n.contr.Idx) :
    (dot_S512x3_S2048x3_S512x2048_1_1_0_0_n_n.lhsIdx i q 1).val = (q ⟨0, by decide⟩).val :=
  dot_S512x3_S2048x3_S512x2048_1_1_0_0_n_n.lhsIdx_val_of_single rfl i q
theorem rhs_dot_0 (i : S512x2048.Idx) (q : dot_S512x3_S2048x3_S512x2048_1_1_0_0_n_n.contr.Idx) :
    (dot_S512x3_S2048x3_S512x2048_1_1_0_0_n_n.rhsIdx i q 0).val = (i 1).val := by
  unfold DotDims.rhsIdx
  rw [dif_neg (show ¬(0 : Fin S2048x3.rank) ∈ dot_S512x3_S2048x3_S512x2048_1_1_0_0_n_n.rhsBatch by decide), dif_pos (show (0 : Fin S2048x3.rank) ∈ dot_S512x3_S2048x3_S512x2048_1_1_0_0_n_n.rhsNonContracting by decide)]
  rfl
theorem rhs_dot_1 (i : S512x2048.Idx) (q : dot_S512x3_S2048x3_S512x2048_1_1_0_0_n_n.contr.Idx) :
    (dot_S512x3_S2048x3_S512x2048_1_1_0_0_n_n.rhsIdx i q 1).val = (q ⟨0, by decide⟩).val :=
  dot_S512x3_S2048x3_S512x2048_1_1_0_0_n_n.rhsIdx_val_of_single rfl i q

/-- The step's matrix product into the zero table, at `(p, j)`: the inner product of source row `p` and target row
    `j` — both operands are contracted along their second axis. -/
theorem dot_apply {φ₁ φ₂ : FTy} (l : FVec Ideal S512x3 φ₁) (r : FVec Ideal S2048x3 φ₂) (p : Fin 512) (j : Fin 2048) :
    matmul dot_S512x3_S2048x3_S512x2048_1_1_0_0_n_n none l r (constant (F := Ideal) S512x2048 .f32 0x00000000#32) (ix2 p j)
      = ∑ k : Fin 3, l (ix2 p k) * r (ix2 j k) := by
  show FloatOps.matmul dot_S512x3_S2048x3_S512x2048_1_1_0_0_n_n none l r (constant (F := Ideal) S512x2048 .f32 0x00000000#32) (ix2 p j) = _
  rw [Ideal.matmul_constant_zero_apply, ← Equiv.sum_comp (contrEquiv1 dot_S512x3_S2048x3_S512x2048_1_1_0_0_n_n 3 rfl rfl).symm]
  refine Finset.sum_congr rfl fun k _ => ?_
  have hk := contrEquiv1_symm_val dot_S512x3_S2048x3_S512x2048_1_1_0_0_n_n 3 rfl rfl k
  have el : dot_S512x3_S2048x3_S512x2048_1_1_0_0_n_n.lhsIdx (ix2 p j) ((contrEquiv1 dot_S512x3_S2048x3_S512x2048_1_1_0_0_n_n 3 rfl rfl).symm k) = ix2 p k := funext fun a => Fin.ext (by
    match a with
    | ⟨0, _⟩ => exact lhs_dot_0 _ _
    | ⟨1, _⟩ => exact (lhs_dot_1 _ _).trans hk)
  have er : dot_S512x3_S2048x3_S512x2048_1_1_0_0_n_n.rhsIdx (ix2 p j) ((contrEquiv1 dot_S512x3_S2048x3_S512x2048_1_1_0_0_n_n 3 rfl rfl).symm k) = ix2 j k := funext fun a => Fin.ext (by
    match a with
    | ⟨0, _⟩ => exact rhs_dot_0 _ _
    | ⟨1, _⟩ => exact (rhs_dot_1 _ _).trans hk)
  rw [el, er]

/-! ### The table, the step's column and the payloads -/

/-- The table of squared distances at `(p, j)`. -/
theorem sqTable_apply (a : FVec Ideal S512x3 .f32) (b : FVec Ideal S2048x3 .f32) (p : Fin 512) (j : Fin 2048) :
    sqTable a b (ix2 p j)
      = ((∑ k : Fin 3, a (ix2 p k) * a (ix2 p k)) + (∑ k : Fin 3, b (ix2 j k) * b (ix2 j k)))
        - two32 * (∑ k : Fin 3, a (ix2 p k) * b (ix2 j k)) := by
  unfold sqTable
  rw [subf_apply, addf_apply, mulf_apply, broadcast_apply, dot_apply, broadcastTo_a1_ab_apply, broadcastTo_1b_ab_apply,
    shapeCast_a_a1_apply, shapeCast_a_1a_apply, sum_row3, sum_row3]
  rfl

/-- The step's column at source row `p`: the distance to the nearest of the step's 2048 targets. -/
theorem stepMin_apply (a : FVec Ideal S512x3 .f32) (b : FVec Ideal S2048x3 .f32) (p : Fin 512) (u : Fin 1) :
    stepMin a b (ix2 p u)
      = Finset.univ.fold min inf32 (fun j : Fin 2048 => dist (fun k => a (ix2 p k)) (fun k => b (ix2 j k))) := by
  unfold stepMin
  rw [shapeCast_a_a1_apply, min_row]
  refine congrArg (Finset.univ.fold min inf32) (funext fun j => ?_)
  show Ideal.sqrt (max (sqTable a b (ix2 p j)) zero32) = _
  rw [sqTable_apply]
  rfl

/-- THE UPDATE at source row `p`: the carried value against the step's nearest distance, the step's rows read straight
    off the two loaded blocks. -/
theorem pay3_apply (x0 : Vec Ideal S1x512x3 .f32) (x1 : Vec Ideal S1x2048x3 .f32) (acc : Vec Ideal S512x1 .f32) (p : Fin 512) (u : Fin 1) :
    k0_pay3 (F := Ideal) x0 x1 acc (ix2 p u)
      = min (acc (ix2 p u)) (Finset.univ.fold min inf32 (fun j : Fin 2048 =>
          dist (fun k => x0 (ix3 (0 : Fin 1) p k)) (fun k => x1 (ix3 (0 : Fin 1) j k)))) := by
  rw [pay3_eq, shapeCast_self]
  refine (minimumf_apply _ _ _).trans ?_
  rw [stepMin_apply]
  simp only [shapeCast_1ab_ab_apply]

/-- THE RESET at any row: the `+inf` pattern. -/
theorem pay2_apply (i : S512x1.Idx) : k0_pay2 (F := Ideal) i = inf32 := by
  rw [pay2_eq, shapeCast_self]
  rfl

/-- THE WRITE-BACK at `(w, p, u)`: the carried column at `(p, u)`. -/
theorem pay1_apply (v : Vec Ideal S512x1 .f32) (w : Fin 1) (p : Fin 512) (u : Fin 1) :
    k0_pay1 (F := Ideal) v (ix3 w p u) = v (ix2 p u) := by
  rw [pay1_eq]
  exact shapeCast_ab_1ab_apply v shapeCasts_S512x1_S1x512x1 w p u

/-- ONE STEP'S LOWER BOUNDS. If the step's source rows are rows of the cloud `Pc` (row `p` is point `(b, r)`), its
    target rows are chunk `n` of batch `b` of the cloud `Gc`, and the carried value at `p` has the lower bounds of `+inf`
    and of the distances to the first `n * 2048` targets, then the updated value has those to the first `(n + 1) * 2048`. -/
theorem step_le (x0 : Vec Ideal S1x512x3 .f32) (x1 : Vec Ideal S1x2048x3 .f32) (acc : Vec Ideal S512x1 .f32)
    (Pc Gc : Cloud.Idx → EReal) (b : Fin 4) (r : Fin 8192) (p : Fin 512) (n : ℕ) (hn : n < 4)
    (hx0 : ∀ k : Fin 3, x0 (ix3 (0 : Fin 1) p k) = Pc (ix3 b r k))
    (hx1 : ∀ (j : Fin 2048) (k8 : Fin 8192), k8.val = n * 2048 + j.val → ∀ k : Fin 3, x1 (ix3 (0 : Fin 1) j k) = Gc (ix3 b k8 k))
    (hacc : ∀ x : EReal, x ≤ acc (ix2 p (0 : Fin 1)) ↔ x ≤ inf32 ∧ ∀ k : Fin 8192, k.val < n * 2048 → x ≤ dist (pt Pc b r) (pt Gc b k))
    (x : EReal) :
    x ≤ k0_pay3 (F := Ideal) x0 x1 acc (ix2 p (0 : Fin 1))
      ↔ x ≤ inf32 ∧ ∀ k : Fin 8192, k.val < (n + 1) * 2048 → x ≤ dist (pt Pc b r) (pt Gc b k) := by
  rw [pay3_apply]
  refine le_running_step inf32 (fun k => dist (pt Pc b r) (pt Gc b k)) n hn _ hacc _ (fun j k8 hk => ?_) x
  show dist (fun k => x0 (ix3 (0 : Fin 1) p k)) (fun k => x1 (ix3 (0 : Fin 1) j k)) = dist (pt Pc b r) (pt Gc b k8)
  have e0 : (fun k => x0 (ix3 (0 : Fin 1) p k)) = pt Pc b r := funext fun k => hx0 k
  have e1 : (fun k => x1 (ix3 (0 : Fin 1) j k)) = pt Gc b k8 := funext fun k => hx1 j k8 hk k
  rw [e0, e1]

end Cert.KernelIdeal.Tile

end
-- ==== Proof.Running.lean ====
/-
  The carried column, step by step, and the output array it ends in.

  Step `t` of the 256 works on batch `t / 64`, source rows `(t / 4 % 16) * 512 + p` and target chunk `t % 4`. By
  induction on the step, the carried column after step `t` has, at row `p`, exactly the lower bounds of `+inf` and of
  the distances from that source point to the first `(t % 4 + 1) * 2048` targets of its batch. The steps with
  `t % 4 = 3` write the column back as block `(t / 64, t / 4 % 16)` of the output; by then the bound ranges over all
  8192 targets, so each written entry is the nearest distance, and the 64 written blocks tile the whole output.
-/
import proofs.«106496_j4097398800462_1_alg».proof.Proof.Cases
import proofs.«106496_j4097398800462_1_alg».proof.Proof.Tile
import Idealize.ShloMosaic.Lib.Pipeline.Value

noncomputable section

namespace Cert.KernelIdeal.Running

open Cert.KernelIdeal Cert.KernelIdeal.Gen Cert.KernelIdeal.Cases Cert.KernelIdeal.Tile Cert.Nearest
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The two argument clouds as the region finds them, and a step's two loaded blocks, at their literal types. -/
abbrev src (c : Dev nD) : Cloud.Idx → EReal := V m c main_arg0
abbrev tgt (c : Dev nD) : Cloud.Idx → EReal := V m c main_arg1
abbrev srcBlk (c : Dev nD) (t : Fin cfg0.N) : Vec Ideal S1x512x3 .f32 := iblk m c 0 t
abbrev tgtBlk (c : Dev nD) (t : Fin cfg0.N) : Vec Ideal S1x2048x3 .f32 := iblk m c 1 t
/-- The carried column after step `n`. -/
abbrev carried (c : Dev nD) (n : ℕ) (hn : n < cfg0.N) : S512x1.Idx → EReal := (outsAt0 m c n hn).2

/-- The printed index maps, decided over the grid: step `t` reads source block `(t / 64, t / 4 % 16, 0)`, target block
    `(t / 64, t % 4, 0)`, and its output block is `(t / 64, t / 4 % 16, 0)`. -/
theorem idx_facts : ∀ t : Fin cfg0.N,
    win0_0.index t (0 : Fin 3) = t.val / 64 ∧ win0_0.index t (1 : Fin 3) = t.val / 4 % 16 ∧ win0_0.index t (2 : Fin 3) = 0
    ∧ win0_1.index t (0 : Fin 3) = t.val / 64 ∧ win0_1.index t (1 : Fin 3) = t.val % 4 ∧ win0_1.index t (2 : Fin 3) = 0
    ∧ win0_2.index t (0 : Fin 3) = t.val / 64 ∧ win0_2.index t (1 : Fin 3) = t.val / 4 % 16 ∧ win0_2.index t (2 : Fin 3) = 0 :=
  (by decide +kernel : ∀ t : Fin grid0.N, _)

/-- Row `p` of a step's source block is source point `(t / 64, (t / 4 % 16) * 512 + p)`. -/
theorem srcBlk_apply (c : Dev nD) (t : Fin cfg0.N) (p : Fin 512) (k : Fin 3) (b : Fin 4) (r : Fin 8192)
    (hb : b.val = t.val / 64) (hr : r.val = t.val / 4 % 16 * 512 + p.val) :
    srcBlk m c t (ix3 (0 : Fin 1) p k) = src m c (ix3 b r k) := by
  obtain ⟨e0, e1, e2, -⟩ := idx_facts t
  show iblk m c 0 t (ix3 (0 : Fin 1) p k) = _
  unfold iblk
  rw [View.read_apply]
  show V m c main_arg0 _ = V m c main_arg0 _
  congr 1
  funext a
  apply Fin.ext
  match a with
  | ⟨0, _⟩ => show win0_0.index t (0 : Fin 3) * 1 + 1 * 0 = b.val; rw [e0, hb]; omega
  | ⟨1, _⟩ => show win0_0.index t (1 : Fin 3) * 512 + 1 * p.val = r.val; rw [e1, hr]; omega
  | ⟨2, _⟩ => show win0_0.index t (2 : Fin 3) * 3 + 1 * k.val = k.val; rw [e2]; omega

/-- Row `j` of a step's target block is target point `(t / 64, (t % 4) * 2048 + j)`. -/
theorem tgtBlk_apply (c : Dev nD) (t : Fin cfg0.N) (j : Fin 2048) (k : Fin 3) (b : Fin 4) (k8 : Fin 8192)
    (hb : b.val = t.val / 64) (hk8 : k8.val = t.val % 4 * 2048 + j.val) :
    tgtBlk m c t (ix3 (0 : Fin 1) j k) = tgt m c (ix3 b k8 k) := by
  obtain ⟨-, -, -, e0, e1, e2, -⟩ := idx_facts t
  show iblk m c 1 t (ix3 (0 : Fin 1) j k) = _
  unfold iblk
  rw [View.read_apply]
  show V m c main_arg1 _ = V m c main_arg1 _
  congr 1
  funext a
  apply Fin.ext
  match a with
  | ⟨0, _⟩ => show win0_1.index t (0 : Fin 3) * 1 + 1 * 0 = b.val; rw [e0, hb]; omega
  | ⟨1, _⟩ => show win0_1.index t (1 : Fin 3) * 2048 + 1 * j.val = k8.val; rw [e1, hk8]; omega
  | ⟨2, _⟩ => show win0_1.index t (2 : Fin 3) * 3 + 1 * k.val = k.val; rw [e2]; omega

/-! ## One step, case by case -/

/-- A FIRST-CHUNK step: the carried value at row `p` has the lower bounds of `+inf` and of the first 2048 targets. -/
theorem first_le (c : Dev nD) (t : Fin cfg0.N) (h0 : t.val % 4 = 0) (p : Fin 512) (b : Fin 4) (r : Fin 8192)
    (hb : b.val = t.val / 64) (hr : r.val = t.val / 4 % 16 * 512 + p.val) (x : EReal) :
    x ≤ carried m c t.val t.isLt (ix2 p (0 : Fin 1)) ↔ x ≤ inf32 ∧ ∀ k : Fin 8192, k.val < (0 + 1) * 2048 → x ≤ dist (pt (src m c) b r) (pt (tgt m c) b k) := by
  have h1 : ¬t.val % 4 = 3 := by omega
  show x ≤ (outsAt0 m c t.val t.isLt).2 (ix2 p (0 : Fin 1)) ↔ _
  rw [outsAt0_A m c t h0 h1]
  dsimp only
  rw [carried_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)]
  exact step_le (srcBlk m c t) (tgtBlk m c t) (k0_pay2 (F := Ideal)) (src m c) (tgt m c) b r p 0 (by decide)
    (fun k => srcBlk_apply m c t p k b r hb hr)
    (fun j k8 hk k => tgtBlk_apply m c t j k b k8 hb (hk.trans (by rw [h0])))
    (fun x => by
      rw [pay2_apply]
      exact ⟨fun h => ⟨h, fun k hk => absurd hk (by omega)⟩, fun h => h.1⟩) x

/-- A MIDDLE-CHUNK step extends the bounds the step before left by its own chunk. -/
theorem middle_le (c : Dev nD) (t : Fin cfg0.N) (h0 : ¬t.val % 4 = 0) (h1 : ¬t.val % 4 = 3) (p : Fin 512) (b : Fin 4) (r : Fin 8192)
    (hb : b.val = t.val / 64) (hr : r.val = t.val / 4 % 16 * 512 + p.val)
    (hprev : ∀ x : EReal, x ≤ (outsAt0 m c (t.val - 1) (Nat.lt_of_le_of_lt (Nat.sub_le _ _) t.isLt)).2 (ix2 p (0 : Fin 1)) ↔ x ≤ inf32 ∧ ∀ k : Fin 8192, k.val < (t.val % 4) * 2048 → x ≤ dist (pt (src m c) b r) (pt (tgt m c) b k)) (x : EReal) :
    x ≤ carried m c t.val t.isLt (ix2 p (0 : Fin 1)) ↔ x ≤ inf32 ∧ ∀ k : Fin 8192, k.val < (t.val % 4 + 1) * 2048 → x ≤ dist (pt (src m c) b r) (pt (tgt m c) b k) := by
  show x ≤ (outsAt0 m c t.val t.isLt).2 (ix2 p (0 : Fin 1)) ↔ _
  rw [outsAt0_B m c t h0 h1]
  dsimp only
  rw [carried_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2]
  exact step_le (srcBlk m c t) (tgtBlk m c t) (outsAt0 m c (t.val - 1) (Nat.lt_of_le_of_lt (Nat.sub_le _ _) t.isLt)).2 (src m c) (tgt m c) b r p (t.val % 4) (Nat.mod_lt _ (by decide))
    (fun k => srcBlk_apply m c t p k b r hb hr)
    (fun j k8 hk k => tgtBlk_apply m c t j k b k8 hb hk)
    hprev x

/-- A LAST-CHUNK step does the same. -/
theorem last_le (c : Dev nD) (t : Fin cfg0.N) (h0 : ¬t.val % 4 = 0) (h1 : t.val % 4 = 3) (p : Fin 512) (b : Fin 4) (r : Fin 8192)
    (hb : b.val = t.val / 64) (hr : r.val = t.val / 4 % 16 * 512 + p.val)
    (hprev : ∀ x : EReal, x ≤ (outsAt0 m c (t.val - 1) (Nat.lt_of_le_of_lt (Nat.sub_le _ _) t.isLt)).2 (ix2 p (0 : Fin 1)) ↔ x ≤ inf32 ∧ ∀ k : Fin 8192, k.val < (t.val % 4) * 2048 → x ≤ dist (pt (src m c) b r) (pt (tgt m c) b k)) (x : EReal) :
    x ≤ carried m c t.val t.isLt (ix2 p (0 : Fin 1)) ↔ x ≤ inf32 ∧ ∀ k : Fin 8192, k.val < (t.val % 4 + 1) * 2048 → x ≤ dist (pt (src m c) b r) (pt (tgt m c) b k) := by
  show x ≤ (outsAt0 m c t.val t.isLt).2 (ix2 p (0 : Fin 1)) ↔ _
  rw [outsAt0_C m c t h0 h1]
  dsimp only
  rw [carried_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2]
  exact step_le (srcBlk m c t) (tgtBlk m c t) (outsAt0 m c (t.val - 1) (Nat.lt_of_le_of_lt (Nat.sub_le _ _) t.isLt)).2 (src m c) (tgt m c) b r p (t.val % 4) (Nat.mod_lt _ (by decide))
    (fun k => srcBlk_apply m c t p k b r hb hr)
    (fun j k8 hk k => tgtBlk_apply m c t j k b k8 hb hk)
    hprev x

/-! ## The invariant -/

/-- THE INVARIANT: after step `n`, the carried value at row `p` has exactly the lower bounds of `+inf` and of the
    distances from source point `(n / 64, (n / 4 % 16) * 512 + p)` to the first `(n % 4 + 1) * 2048` targets of its batch.
    By induction on the step: a first chunk starts from the reset column, any other from what the step before left
    (which belongs to the same source rows, one chunk earlier). -/
theorem carried_le (c : Dev nD) : ∀ (n : ℕ) (hn : n < cfg0.N) (p : Fin 512) (b : Fin 4) (r : Fin 8192),
    b.val = n / 64 → r.val = n / 4 % 16 * 512 + p.val → ∀ x : EReal,
    (x ≤ carried m c n hn (ix2 p (0 : Fin 1)) ↔ x ≤ inf32 ∧ ∀ k : Fin 8192, k.val < (n % 4 + 1) * 2048 → x ≤ dist (pt (src m c) b r) (pt (tgt m c) b k)) := by
  intro n
  induction n using Nat.strong_induction_on with
  | _ n ih =>
    intro hn p b r hb hr x
    by_cases h0 : n % 4 = 0
    · have := first_le m c ⟨n, hn⟩ h0 p b r hb hr x
      rw [h0]
      exact this
    · have hprev : ∀ x : EReal, x ≤ (outsAt0 m c (n - 1) (Nat.lt_of_le_of_lt (Nat.sub_le _ _) hn)).2 (ix2 p (0 : Fin 1))
          ↔ x ≤ inf32 ∧ ∀ k : Fin 8192, k.val < (n % 4) * 2048 → x ≤ dist (pt (src m c) b r) (pt (tgt m c) b k) := fun x => by
        have := ih (n - 1) (by omega) (Nat.lt_of_le_of_lt (Nat.sub_le _ _) hn) p b r (by omega) (by omega) x
        rw [show (n - 1) % 4 + 1 = n % 4 by omega] at this
        exact this
      by_cases h1 : n % 4 = 3
      · exact last_le m c ⟨n, hn⟩ h0 h1 p b r hb hr hprev x
      · exact middle_le m c ⟨n, hn⟩ h0 h1 p b r hb hr hprev x

/-- At a last-chunk step the block left for the write-back is the carried column of that step, re-laid. -/
theorem out_apply (c : Dev nD) (t : Fin cfg0.N) (h3 : t.val % 4 = 3) (w : Fin 1) (p : Fin 512) (u : Fin 1) :
    ((outsAt0 m c t.val t.isLt).1 : Vec Ideal S1x512x1 .f32) (ix3 w p u) = carried m c t.val t.isLt (ix2 p u) := by
  have h0 : ¬t.val % 4 = 0 := by omega
  have hN : cfg0.N = 256 := N_0
  show _ = (outsAt0 m c t.val t.isLt).2 (ix2 p u)
  rw [outsAt0_C m c t h0 h3]
  dsimp only
  rw [out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk m c 0 t) (iblk m c 1 t) _,
    carried_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk m c 0 t) (iblk m c 1 t) _]
  exact pay1_apply _ w p u

/-! ## The output array -/

/-- What the output array ends holding: at `(b, r, ·)` the nearest distance of source point `(b, r)`. -/
def nearestCol (c : Dev nD) : S4x8192x1.Idx → EReal := fun i =>
  nearest (src m c) (tgt m c) ⟨(i 0).val, (i 0).isLt⟩ ⟨(i 1).val, (i 1).isLt⟩

/-- WHAT A LAST-CHUNK STEP WRITES BACK is its block of `nearestCol`. -/
theorem flushed_eq (c : Dev nD) (t : Fin cfg0.N) (hf : (cfg0.win 2).flush t = true) :
    (dats m 0 c).flushed 2 t = ((cfg0.win 2).blk t).view.read (Elt Ideal) (nearestCol m c) := by
  have h3 : t.val % 4 = 3 := (flush0_2 t).mp hf
  have hN : cfg0.N = 256 := N_0
  have htl := t.isLt
  obtain ⟨-, -, -, -, -, -, e0, e1, e2⟩ := idx_facts t
  show (cfg0.win 2).cut (grid0.coords t) ((dats m 0 c).after 2 t) = _
  rw [after0_2]
  funext y
  obtain ⟨w, p, u, rfl⟩ : ∃ (w : Fin 1) (p : Fin 512) (u : Fin 1), y = ix3 w p u := ⟨y 0, y 1, y 2, eq_ix3 y⟩
  rw [View.read_apply]
  show ((outsAt0 m c t.val t.isLt).1 : Vec Ideal S1x512x1 .f32) (ix3 w p u) = nearestCol m c (((cfg0.win 2).blk t).view.emb (ix3 w p u))
  rw [out_apply m c t h3 w p u]
  obtain rfl : u = 0 := Subsingleton.elim _ _
  have hw : w.val = 0 := by omega
  have hp := p.isLt
  unfold nearestCol
  refine eq_nearest_of_le_iff _ _ _ _ _ fun x => ?_
  have hb : (((cfg0.win 2).blk t).view.emb (ix3 w p (0 : Fin 1)) 0).val = t.val / 64 := by
    show win0_2.index t (0 : Fin 3) * 1 + 1 * w.val = t.val / 64
    rw [e0, hw]; omega
  have hr : (((cfg0.win 2).blk t).view.emb (ix3 w p (0 : Fin 1)) 1).val = t.val / 4 % 16 * 512 + p.val := by
    show win0_2.index t (1 : Fin 3) * 512 + 1 * p.val = t.val / 4 % 16 * 512 + p.val
    rw [e1]; omega
  have := carried_le m c t.val t.isLt p ⟨_, (((cfg0.win 2).blk t).view.emb (ix3 w p (0 : Fin 1)) 0).isLt⟩ ⟨_, (((cfg0.win 2).blk t).view.emb (ix3 w p (0 : Fin 1)) 1).isLt⟩ hb hr x
  rw [h3] at this
  exact this

/-- An index of the output is in step `t`'s block iff each coordinate is in the block's range on its axis. -/
theorem mem_blk (t : Fin cfg0.N) (i : S4x8192x1.Idx) :
    i ∈ ((cfg0.win 2).blk t).view.set ↔ ∀ a : Fin 3, win0_2.index t a * S1x512x1.size a ≤ (i a).val ∧ (i a).val < win0_2.index t a * S1x512x1.size a + S1x512x1.size a := by
  show i ∈ ((View.whole main_v0).slice (win0_2.rect t)).set ↔ _
  rw [View.set_slice_whole, Rect.mem_set_unit]
  exact Iff.rfl

/-- THE OUTPUT ARRAY after the run is `nearestCol`: entry `(b, r, ·)` lies in the block written by the last-chunk step
    of row block `(b, r / 512)`. -/
theorem final (c : Dev nD) : (dats m 0 c).arrAt 2 cfg0.N = nearestCol m c :=
  (dats m 0 c).arrAt_eq_of_cover 2 (nearestCol m c) (flushed_eq m c) fun i => by
    have hN : cfg0.N = 256 := N_0
    have h0 : (i 0).val < 4 := (i 0).isLt
    have h1 : (i 1).val < 8192 := (i 1).isLt
    have h2 : (i 2).val < 1 := (i 2).isLt
    have ht : ((i 0).val * 16 + (i 1).val / 512) * 4 + 3 < cfg0.N := by omega
    obtain ⟨-, -, -, -, -, -, e0, e1, e2⟩ := idx_facts ⟨_, ht⟩
    refine ⟨⟨_, ht⟩, (flush0_2 ⟨_, ht⟩).mpr (by show (((i 0).val * 16 + (i 1).val / 512) * 4 + 3) % 4 = 3; omega), ?_⟩
    rw [mem_blk]
    intro a
    match a with
    | ⟨0, _⟩ =>
      show win0_2.index ⟨_, ht⟩ (0 : Fin 3) * 1 ≤ (i 0).val ∧ (i 0).val < win0_2.index ⟨_, ht⟩ (0 : Fin 3) * 1 + 1
      rw [e0]; dsimp only; omega
    | ⟨1, _⟩ =>
      show win0_2.index ⟨_, ht⟩ (1 : Fin 3) * 512 ≤ (i 1).val ∧ (i 1).val < win0_2.index ⟨_, ht⟩ (1 : Fin 3) * 512 + 512
      rw [e1]; dsimp only; omega
    | ⟨2, _⟩ =>
      show win0_2.index ⟨_, ht⟩ (2 : Fin 3) * 1 ≤ (i 2).val ∧ (i 2).val < win0_2.index ⟨_, ht⟩ (2 : Fin 3) * 1 + 1
      rw [e2]; omega

end Cert.KernelIdeal.Running

end
-- ==== Proof.KernelRun.lean ====
/-
  The kernel's program, run: the pallas_call leaves the column of nearest distances in its output array, and the
  three host lines after it take the mean of that array re-laid as a 4 × 8192 table.
-/
import proofs.«106496_j4097398800462_1_alg».proof.Proof.Running
import Idealize.ShloMosaic.Lib.StableHlo.Run
import Idealize.ShloMosaic.Lib.Pipeline.Value

noncomputable section

namespace Cert.KernelIdeal.KernelRun

open Cert.KernelIdeal Cert.KernelIdeal.Gen Cert.KernelIdeal.Running Cert.Nearest
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- An `[a, b, 1]` array cast to `[a, b]` reads, at `(i, j)`, the operand at `(i, j, 0)`. -/
theorem shapeCast_ab1_ab_apply {α : Type} {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- The output array, re-laid as a table, is the table of nearest distances. -/
theorem table_eq (c : Dev nD) :
    shapeCast S4x8192 (nearestCol m c) shapeCasts_S4x8192x1_S4x8192 = nearestTable (src m c) (tgt m c) := by
  funext i
  obtain ⟨b, r, rfl⟩ : ∃ (b : Fin 4) (r : Fin 8192), i = ix2 b r := ⟨i 0, i 1, eq_ix2 i⟩
  rw [shapeCast_ab1_ab_apply]
  rfl

/-- The program's result: the three host lines applied to the pallas_call's output array. -/
theorem tail_eq (c : Dev nD) :
    Pipeline.afterTail₀ cfgs (dats m) 0 (V0 m) [hostOps1] c main_v4 = mean (nearestTable (src m c) (tgt m c)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v0)
      = nearestCol m c :=
    (Pipeline.withArrays_arr spec0 launch0.win.arr_inj c _ _ 2).trans (final m c)
  rw [e]
  show mean (shapeCast S4x8192 (nearestCol m c) shapeCasts_S4x8192x1_S4x8192) = _
  rw [table_eq]

/-- The result buffer is none of the pallas_call's arrays. -/
theorem v4_rest : main_v4 ∈ Pipeline.restRefs sig cfg0.spec :=
  Pipeline.mem_restRefs_of main_v4 rfl (by decide)

/-- THE RUN, READ: every weakly fair execution of the kernel's program ends with the result at the mean of the nearest
    distances of the argument clouds, the arguments unchanged. -/
theorem run : θ_run defs (onTc (τ := τ) (main (F := Ideal))) ⟨m, fun _ => 0, ρ⟩ fun r => ∀ c : Dev nD,
      r.2.mem ((c : Thread nD τ).loc main_v4)
        = mean (nearestTable (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v4 v4_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelRun

end
-- ==== Proof.RefValue.lean ====
/-
  The reference program read back.

  The host forms the full 4 × 8192 × 8192 table of distances — squared norms by two sums over the three
  coordinates, inner products by one batched product, `(|a|² + |b|²) - 2 (a · b)` clamped at zero, square root — and
  reduces its last axis by `min` from `+inf`: entry `(b, r)` of the result is the nearest distance of source point
  `(b, r)`. The sum over all entries, the division and the final product follow and are shared with the kernel's
  program, so they are never opened.
-/
import proofs.«106496_j4097398800462_1_alg».proof.Proof.Gen.ReferenceIdeal.Read
import proofs.«106496_j4097398800462_1_alg».proof.Proof.Nearest

noncomputable section

namespace Cert.ReferenceIdeal.RefValue

open Cert.ReferenceIdeal Cert.ReferenceIdeal.Gen Cert.ReferenceIdeal.Read Cert.Nearest
open Idealize.ShloMosaic Idealize.ShloMosaic.ValueIdx

/-- The distance table at `(b, r, j)`: the distance of source point `(b, r)` and target point `(b, j)`. -/
theorem table_apply (x0 x1 : (⟨S4x8192x3, .f32⟩ : BufTy).Contents (Elt Ideal)) (b : Fin 4) (r j : Fin 8192) :
    val_main_v15 (F := Ideal) x0 x1 (ix3 b r j) = dist (pt x0 b r) (pt x1 b j) := by
  have e1 : ∀ k : Fin 3, idx_main_v1 (idx_main_v5 (idx_main_v7 (ix3 b r j))) k = ix3 b r k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b r j))) k = ix3 b j k := fun k =>
    funext fun a => Fin.ext (by match a with | ⟨0, _⟩ => rfl | ⟨1, _⟩ => rfl | ⟨2, _⟩ => rfl)
  have el : ∀ k : Fin 3, lidx_main_v4 (ix3 b r j) k = ix3 b r k := fun k =>
    funext fun a => Fin.ext (by match a with | ⟨0, _⟩ => rfl | ⟨1, _⟩ => rfl | ⟨2, _⟩ => rfl)
  have er : ∀ k : Fin 3, ridx_main_v4 (ix3 b r j) k = ix3 b j k := fun k =>
    funext fun a => Fin.ext (by match a with | ⟨0, _⟩ => rfl | ⟨1, _⟩ => rfl | ⟨2, _⟩ => rfl)
  rw [val_main_v15_apply, val_main_v14_apply, val_main_v12_apply, val_main_v9_apply, val_main_v11_apply, val_main_v7_apply,
    val_main_v5_apply, val_main_v1_apply, val_main_v8_apply, val_main_v6_apply, val_main_v3_apply, val_main_v10_apply,
    val_main_v4_apply, val_main_v13_apply]
  unfold Nearest.dist Nearest.pt
  simp only [e1, e3, el, er, val_main_v0_apply, val_main_v2_apply, val_main_cst_apply, val_main_cst_0_apply, val_main_cst_1_apply,
    val_main_cst_2_apply, Ideal.ofBits_def, Ideal.mulf_def, Ideal.addf_def, Ideal.subf_def, Ideal.maximumf_def,
    Ideal.hostUnary_sqrt_def, Ideal.ofBits_zero_f32, zero_add]

/-- The host's `min`-reduce over the last axis of a rank-3 array, at `(b, r)`: the minimum, from the initial value, of
    the entries `(b, r, j)`, in any order. -/
theorem hostMin_last {n0 n1 n2 : ℕ} {u : Shape} (src : (⟨3, ![n0, n1, n2]⟩ : Shape).Idx → EReal) (init : u.Idx → EReal)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (b : Fin n0) (r : Fin n1) :
    Host.reduce (FloatOps.minimumf (F := Ideal) (φ := .f32)) src init h' hu (ix2 b r)
      = Finset.univ.fold min (init (Shape.Idx.first hu)) (fun j : Fin n2 => src (ix3 b r j)) :=
  (Host.reduce_eq_fold_single (FloatOps.minimumf (F := Ideal) (φ := .f32)) src init h' h hu (ix2 b r)).trans
    (congrArg (Finset.univ.fold min (init (Shape.Idx.first hu))) (funext fun j => congrArg src (funext fun a => Fin.ext (by
      match a with
      | ⟨0, _⟩ => rfl
      | ⟨1, _⟩ => rfl
      | ⟨2, _⟩ => rfl))))

/-- The reduced axis is the table's last. -/
theorem reduces_table : S4x8192x8192.Reduces [2] S4x8192 := by decide

/-- THE ROW MINIMA: the reduce over the table's last axis is, at `(b, r)`, the nearest distance of source point `(b, r)`. -/
theorem rowMin_apply (x0 x1 : (⟨S4x8192x3, .f32⟩ : BufTy).Contents (Elt Ideal)) (b : Fin 4) (r : Fin 8192) :
    val_main_v16 (F := Ideal) x0 x1 (ix2 b r) = nearest x0 x1 b r := by
  unfold val_main_v16
  refine (hostMin_last (val_main_v15 (F := Ideal) x0 x1) (val_main_cst_3 (F := Ideal)) reducesTo_S4x8192x8192_S4x8192_d2
    reduces_table h_S_ b r).trans ?_
  unfold nearest
  exact congrArg (Finset.univ.fold min inf32) (funext fun j => table_apply x0 x1 b r j)

/-- THE PROGRAM'S RESULT: the mean of the table of nearest distances of the two argument clouds. -/
theorem result_eq (x0 x1 : (⟨S4x8192x3, .f32⟩ : BufTy).Contents (Elt Ideal)) :
    val_main_v19 (F := Ideal) x0 x1 = mean (nearestTable x0 x1) := by
  have e : val_main_v16 (F := Ideal) x0 x1 = nearestTable x0 x1 := funext fun i => by
    obtain ⟨b, r, rfl⟩ : ∃ (b : Fin 4) (r : Fin 8192), i = ix2 b r := ⟨i 0, i 1, eq_ix2 i⟩
    exact rowMin_apply x0 x1 b r
  unfold val_main_v19 val_main_v18 val_main_v17
  rw [e]
  rfl

end Cert.ReferenceIdeal.RefValue

end
-- ==== Proof.lean ====
/-
  The certificate of a nearest-neighbour loss: for two batched clouds of 8192 three-dimensional points, the mean over
  all source points of the distance to the nearest target point of the same batch.

  Both programs compute, for source point `(b, r)`, the minimum over the 8192 targets `j` of
  `sqrt (max ((|a|² + |b|²) - 2 (a · b)) 0)` from the `+inf` pattern, and then the same mean. The reference takes each
  minimum over all targets at once. The kernel walks a 4 × 16 × 4 grid: 512 source points against 2048 targets per
  step, a running minimum carried across the four target chunks of a row block and written out after the last. On the
  extended reals `min` is determined by its lower bounds, so the running minimum after the last chunk is the minimum
  over all targets (Proof/Nearest.lean, Proof/Running.lean); the squared norms and inner products are the same sums
  over three coordinates on both sides (Proof/Tile.lean, Proof/RefValue.lean); the closing mean is one shared term that
  is never opened. No finiteness of the inputs is used: only that `+` and `min` commute and associate.

  The three frames are the generated runs; the idealization rewrote nothing, so `preserves` is trivial.
-/
import proofs.«106496_j4097398800462_1_alg».proof.Defs
import proofs.«106496_j4097398800462_1_alg».proof.Proof.Gen.Kernel.Frame
import proofs.«106496_j4097398800462_1_alg».proof.Proof.Gen.KernelIdeal.Frame
import proofs.«106496_j4097398800462_1_alg».proof.Proof.Gen.ReferenceIdeal.Run
import proofs.«106496_j4097398800462_1_alg».proof.Proof.Gen.Pre_finite_inputs
import proofs.«106496_j4097398800462_1_alg».proof.Proof.KernelRun
import proofs.«106496_j4097398800462_1_alg».proof.Proof.RefValue

noncomputable section

namespace Cert.Proof

open Idealize.ShloMosaic Idealize.ShloMosaic.TcCoe Idealize.SL.Sem Cert.Nearest

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance both programs end at the mean of the table of nearest distances of clouds that agree. -/
theorem algebraic : Cert.algebraic_KernelIdeal_ReferenceIdeal := by
  intro m ρ m' ρ' _ hagree
  refine ⟨fun c => mean (nearestTable (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
